-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x4096x4096 .f32) (main_arg1 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S4x4096x4096 : Shape := ⟨3, ![4, 4096, 4096]⟩
abbrev S4096 : Shape := ⟨1, ![4096]⟩
abbrev S1x256x4096 : Shape := ⟨3, ![1, 256, 4096]⟩
abbrev S1x1x4096 : Shape := ⟨3, ![1, 1, 4096]⟩

abbrev nBuf : Space → Nat
  | .hbm => 3
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x4096x4096, .f32⟩
  | .local _ .vmem, ⟨0, _⟩ => ⟨S1x256x4096, .f32⟩
  | .local _ .vmem, ⟨1, _⟩ => ⟨S1x256x4096, .f32⟩
  | .local _ .vmem, ⟨2, _⟩ => ⟨S4096, .f32⟩
  | .local _ .vmem, ⟨3, _⟩ => ⟨S1x256x4096, .f32⟩
  | .local _ .vmem, ⟨4, _⟩ => ⟨S1x256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x256x4096_S1x256x4096_0_0_0 : ∀ a, (![0, 0, 0] : Fin 3 → Nat) a + S1x256x4096.size a ≤ S1x256x4096.size a
  h_S1x256x4096 : 0 < S1x256x4096.numel
  inb_S4096_S4096_0 : ∀ a, (![0] : Fin 1 → Nat) a + S4096.size a ≤ S4096.size a
  h_S4096 : 0 < S4096.numel
  shapeCasts_S4096_S1x1x4096 : S4096.ShapeCasts S1x1x4096
  broadcasts_S1x1x4096_S1x256x4096 : S1x1x4096.Broadcasts S1x256x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S4x4096x4096.size a
  hwx0_0 : ∀ i : grid0.Coords, EltTy.bits .f32 = 32 ∨ (Rect.block (s := S4x4096x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x4096.size a ≤ S4x4096x4096.size a
  hwx0_2 : ∀ i : grid0.Coords, EltTy.bits .f32 = 32 ∨ (Rect.block (s := S4x4096x4096) S1x256x4096.size (cc0_transform_2 i) (hinb0_2 i)).WholeWords (EltTy.packing .f32)

variable [Facts₀]

abbrev win0_0 : Pipeline.Window sig grid0 :=
  Pipeline.Window.ofSpec (Memref.whole main_arg0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096 : Shape := ⟨1, ![4096]⟩
abbrev S1x1x4096 : Shape := ⟨3, ![1, 1, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S1x1x4096, .f32⟩
  | .hbm, ⟨3, _⟩ => ⟨S4x4096x4096, .f32⟩
  | .hbm, ⟨4, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)

variable [Facts₀]

class Facts : Prop extends Facts₀ where

variable [Facts]
-- ==== Proof.ScaleSpec.lean ====
/-
  Scaling along the last axis.  For an array `x` of shape [4, 4096, 4096] and a weight vector `w` of length 4096,

      scaleLast x w [b, r, c]  =  x[b, r, c] · w[c].

  This is multiplication by the diagonal matrix diag(w) on the right, written entry by entry: entry (b, r, c) of
  x · diag(w) is the sum over k of x[b, r, k] · diag(w)[k, c], and only the term k = c survives.  The function is
  stated for every float instance: each entry is ONE product, so nothing about the order of operations, about
  infinities or about finiteness of the inputs enters; two programs that each compute this one product per entry
  agree without any algebraic law.
-/
import Idealize.ShloMosaic.Lib.ValueIdx

noncomputable section

namespace Cert.Scale

open Idealize.ShloMosaic Idealize.ShloMosaic.ValueIdx

variable {F : FTy → Type} [FloatOps F]

/-- The shape of the array that is scaled: 4 batches of 4096 rows of 4096 columns. -/
abbrev Arr : Shape := ⟨3, ![4, 4096, 4096]⟩
/-- The shape of the weight vector: one weight per column. -/
abbrev Wt : Shape := ⟨1, ![4096]⟩

/-- The column of an entry of the array, as an index into the weight vector. -/
abbrev col (i : Arr.Idx) : Wt.Idx := ix1 (n := 4096) ⟨(i 2).val, (i 2).isLt⟩

/-- Every entry of `x` multiplied by the weight of its column. -/
def scaleLast (x : Arr.Idx → Elt F .f32) (w : Wt.Idx → Elt F .f32) : Arr.Idx → Elt F .f32 :=
  fun i => FloatOps.mulf (x i) (w (col i))

theorem scaleLast_apply (x : Arr.Idx → Elt F .f32) (w : Wt.Idx → Elt F .f32) (i : Arr.Idx) :
    scaleLast x w i = FloatOps.mulf (x i) (w (col i)) := rfl

end Cert.Scale

end
-- ==== Proof.KernelScale.lean ====
/-
  The kernel computes `scaleLast`.  The grid has 4 × 16 points; point (b, i) works on the block of 256 rows
  256·i … 256·i + 255 of batch b, all 4096 columns, and on the whole weight vector.  Its body multiplies each entry
  of the block by the weight of that entry's column, so what the point writes back is exactly the restriction of
  `scaleLast x w` to its block (`flushed_scale`).  The 64 blocks tile the array: row r of batch b lies in the block
  of point (b, r / 256) (`covered`).  Hence the output array ends as `scaleLast x w` (`final_scale`, `run`).
-/
import proofs.«161666_j9388798509068_1_alg».proof.Proof.Gen.KernelIdeal.Value
import proofs.«161666_j9388798509068_1_alg».proof.Proof.ScaleSpec

noncomputable section

namespace Cert.KernelIdeal.KerScale

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx (ix1)

variable {F : FTy → Type} [FloatOps F]
variable (m : (ℓ : Loc nD τ sig) → Buf (Elt F) ℓ) (ρ : Dev nD → PrngReg)

theorem origin3 : (![0, 0, 0] : Fin 3 → Nat) = fun _ => 0 := funext fun a => by fin_cases a <;> rfl
theorem origin1 : (![0] : Fin 1 → Nat) = fun _ => 0 := funext fun a => by fin_cases a <;> rfl

/-- The column of an entry of a [1, 256, 4096] block, as an index into the weight vector. -/
abbrev blockCol (y : S1x256x4096.Idx) : S4096.Idx := ix1 (n := 4096) ⟨(y 2).val, (y 2).isLt⟩

/-- ONE ENTRY OF THE OUTPUT BLOCK after the body, for any x-block `xb` and weight vector `wv` the body loaded: the
    x-block's entry times the weight of its column. -/
theorem block_apply (xb : Vec F S1x256x4096 .f32) (wv : Vec F S4096 .f32) (y : S1x256x4096.Idx) :
    out0_2 xb wv y = FloatOps.mulf (xb y) (wv (blockCol y)) := by
  unfold out0_2
  rw [canon2_eq]
  simp only [View.ld_unit_zero (S := S1x256x4096) origin3, View.ld_unit_zero (S := S4096) origin1]
  show FloatOps.mulf (xb (ix2_0 y)) (wv (ix2_1 y)) = _
  have e0 : ix2_0 y = y := funext fun a => Fin.ext (match a with
    | ⟨0, _⟩ => (by have h : (y 0).val < 1 := (y 0).isLt; show 0 = (y 0).val; omega)
    | ⟨1, _⟩ => rfl
    | ⟨2, _⟩ => rfl)
  have e1 : ix2_1 y = blockCol y := funext fun a => match a with | ⟨0, _⟩ => rfl
  rw [e0, e1]

/-- The printed index maps, decided over the 64 grid points: the x window and the output window are on the same
    block (batch, row block, column block 0), the weight window is always on its one block, and the block indices
    stay inside 4 batches and 16 row blocks. -/
theorem index_facts : ∀ t : Fin cfg0.N,
    win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_1.index t (0 : Fin 1) = 0
    ∧ win0_2.index t (2 : Fin 3) = 0
    ∧ win0_2.index t (0 : Fin 3) ≤ 3
    ∧ win0_2.index t (1 : Fin 3) ≤ 15 :=
  (by decide +kernel : ∀ t : Fin grid0.N, _)

/-- Every (batch, row block) pair is some grid point's output block. -/
theorem index_onto : ∀ (b : Fin 4) (q : Fin 16), ∃ t : Fin cfg0.N, win0_2.index t = ![b.val, q.val, 0] :=
  (by decide +kernel : ∀ (b : Fin 4) (q : Fin 16), ∃ t : Fin grid0.N, win0_2.index t = ![b.val, q.val, 0])

/-- WHAT POINT `t` WRITES BACK is the restriction of `scaleLast x w` to the point's block. -/
theorem flushed_scale (c : Dev nD) (t : Fin cfg0.N) :
    (dats m 0 c).flushed 2 t
      = ((cfg0.win 2).blk t).view.read (Elt F) (Cert.Scale.scaleLast (V m c main_arg0) (V m c main_arg1)) := by
  rw [flushed2]
  funext j
  show out0_2 (iblk m c 0 t) (iblk m c 1 t) j
    = Cert.Scale.scaleLast (V m c main_arg0) (V m c main_arg1) (((cfg0.win 2).blk t).view.emb j)
  refine (block_apply (iblk m c 0 t) (iblk m c 1 t) j).trans ?_
  rw [Cert.Scale.scaleLast_apply]
  obtain ⟨e0, e1, e2, e3, e4, -, -⟩ := index_facts t
  have hj0 : (j 0).val < 1 := (j 0).isLt
  have hj1 : (j 1).val < 256 := (j 1).isLt
  have hj2 : (j 2).val < 4096 := (j 2).isLt
  -- the x-block's entry j is the array's entry under j in the output block: the two windows are on the same block
  have hx0 : ((cfg0.win 0).blk t).view.emb j = ((cfg0.win 2).blk t).view.emb j := by
    funext a; apply Fin.ext
    match a with
    | ⟨0, _⟩ => show win0_0.index t (0 : Fin 3) * 1 + 1 * (j 0).val = win0_2.index t (0 : Fin 3) * 1 + 1 * (j 0).val; omega
    | ⟨1, _⟩ => show win0_0.index t (1 : Fin 3) * 256 + 1 * (j 1).val = win0_2.index t (1 : Fin 3) * 256 + 1 * (j 1).val; omega
    | ⟨2, _⟩ => show win0_0.index t (2 : Fin 3) * 4096 + 1 * (j 2).val = win0_2.index t (2 : Fin 3) * 4096 + 1 * (j 2).val; omega
  have hx : iblk m c 0 t j = V m c main_arg0 (((cfg0.win 2).blk t).view.emb j) :=
    show V m c main_arg0 (((cfg0.win 0).blk t).view.emb j) = _ from congrArg (V m c main_arg0) hx0
  -- the weight the body uses for entry j is the weight of the column of the array's entry under j
  have hw0 : ((cfg0.win 1).blk t).view.emb (blockCol j) = Cert.Scale.col (((cfg0.win 2).blk t).view.emb j) := by
    funext a; apply Fin.ext
    match a with
    | ⟨0, _⟩ => show win0_1.index t (0 : Fin 1) * 4096 + 1 * (j 2).val = win0_2.index t (2 : Fin 3) * 4096 + 1 * (j 2).val; omega
  have hw : iblk m c 1 t (blockCol j) = V m c main_arg1 (Cert.Scale.col (((cfg0.win 2).blk t).view.emb j)) :=
    show V m c main_arg1 (((cfg0.win 1).blk t).view.emb (blockCol j)) = _ from congrArg (V m c main_arg1) hw0
  rw [hx, hw]

/-- An entry of the array is in point `t`'s block iff each coordinate is in the block's range on its axis. -/
theorem mem_block (t : Fin cfg0.N) (i : S4x4096x4096.Idx) :
    i ∈ ((cfg0.win 2).blk t).view.set
      ↔ ∀ a : Fin 3, win0_2.index t a * S1x256x4096.size a ≤ (i a).val
          ∧ (i a).val < win0_2.index t a * S1x256x4096.size a + S1x256x4096.size a := by
  show i ∈ ((View.whole main_v0).slice (win0_2.rect t)).set ↔ _
  rw [View.set_slice_whole, Rect.mem_set_unit]
  exact Iff.rfl

/-- THE BLOCKS TILE THE ARRAY: entry [b, r, c] lies in the block of the point whose output block is
    (b, r / 256, 0), and every point writes its block back. -/
theorem covered (i : S4x4096x4096.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 4096 := (i 2).isLt
  obtain ⟨t, ht⟩ := index_onto ⟨(i 0).val, hi0⟩ ⟨(i 1).val / 256, by omega⟩
  have q0 : win0_2.index t (0 : Fin 3) = (i 0).val := congrFun ht 0
  have q1 : win0_2.index t (1 : Fin 3) = (i 1).val / 256 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 4096 ≤ (i 2).val ∧ (i 2).val < win0_2.index t (2 : Fin 3) * 4096 + 4096; omega

/-- THE OUTPUT ARRAY after the run is `scaleLast` of the two argument arrays as launched. -/
theorem final_scale (c : Dev nD) :
    (dats m 0 c).arrAt 2 cfg0.N
      = Cert.Scale.scaleLast (m ((c : Thread nD τ).loc main_arg0)) (m ((c : Thread nD τ).loc main_arg1)) :=
  (dats m 0 c).arrAt_eq_of_cover 2 (Cert.Scale.scaleLast (V m c main_arg0) (V m c main_arg1))
    (fun t _ => flushed_scale m c t) covered

/-- The kernel's run: every weakly fair execution terminates with the output array at `scaleLast x w` and both
    arguments unchanged. -/
theorem run : θ_run defs (onTc (τ := τ) (main (F := F))) ⟨m, fun _ => 0, ρ⟩ fun r => ∀ c : Dev nD,
      r.2.mem ((c : Thread nD τ).loc main_v0)
        = Cert.Scale.scaleLast (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_scale m c), (h c).2⟩) (run_blocks m ρ)

end Cert.KernelIdeal.KerScale

end
-- ==== Proof.RefScale.lean ====
/-
  The reference computes `scaleLast`.  Its three host operations are: the weight vector laid out as a [1, 1, 4096]
  array (entry [0, 0, c] is w[c]), that array repeated over the 4 batches and 4096 rows (entry [b, r, c] is again
  w[c]), and the entrywise product with x.  Reading the result at an entry [b, r, c] therefore gives x[b, r, c] · w[c]:
  each of the two layout steps keeps the last coordinate and forgets the others.
-/
import proofs.«161666_j9388798509068_1_alg».proof.Proof.Gen.ReferenceIdeal.Read
import proofs.«161666_j9388798509068_1_alg».proof.Proof.ScaleSpec

noncomputable section

namespace Cert.ReferenceIdeal.RefScale

open Cert.ReferenceIdeal Cert.ReferenceIdeal.Read Idealize.ShloMosaic Idealize.ShloMosaic.ValueIdx

variable {F : FTy → Type} [FloatOps F]

/-- Through both layout steps an entry [b, r, c] of the repeated array is read from the weight vector at its
    column c. -/
theorem read_col (i : S4x4096x4096.Idx) : idx_main_v0 (idx_main_v1 i) = Cert.Scale.col i :=
  funext fun a => match a with | ⟨0, _⟩ => rfl

/-- The reference's result, as a function of its two arguments, is `scaleLast`. -/
theorem result_eq (x : (⟨S4x4096x4096, .f32⟩ : BufTy).Contents (Elt F)) (w : (⟨S4096, .f32⟩ : BufTy).Contents (Elt F)) :
    val_main_v2 (F := F) x w = Cert.Scale.scaleLast x w := by
  funext i
  rw [val_main_v2_apply, val_main_v1_apply, val_main_v0_apply, read_col, Cert.Scale.scaleLast_apply]

end Cert.ReferenceIdeal.RefScale

end
-- ==== Proof.lean ====
/-
  A scaling of the last axis, x[b, r, c] · w[c] for x of shape [4, 4096, 4096] and w of length 4096 (multiplication
  by the diagonal matrix diag(w) on the right), computed by a kernel that streams 64 blocks of 256 rows through the
  core, against the same product written as one broadcast multiplication.

  Both programs compute, at every entry, the ONE product x[b, r, c] · w[c] (`Cert.Scale.scaleLast`, Proof/ScaleSpec.lean):
  • the reference lays w out as a [1, 1, 4096] array, repeats it over batches and rows, and multiplies entrywise;
    read at an entry this is x[b, r, c] · w[c] (Proof/RefScale.lean, over the reference's run read one operation at
    a time);
  • the kernel's grid point (b, i) multiplies rows 256·i … 256·i + 255 of batch b by w, column by column, and writes
    that block back; the 64 blocks tile the array, so the output array ends as the same function
    (Proof/KernelScale.lean, over the kernel's run with the output array named).
  No algebraic law joins the two sides — they are the same product at every entry — so the finiteness of the inputs
  is never used.  The kernel's idealization rewrote nothing, so "the idealized kernel is the kernel's sanctioned
  idealization" holds trivially.  The three termination-and-unchanged-arguments claims are the runs themselves with
  the result forgotten.
-/
import proofs.«161666_j9388798509068_1_alg».proof.Defs
import proofs.«161666_j9388798509068_1_alg».proof.Proof.Gen.Kernel
import proofs.«161666_j9388798509068_1_alg».proof.Proof.Gen.Kernel.Frame
import proofs.«161666_j9388798509068_1_alg».proof.Proof.Gen.KernelIdeal
import proofs.«161666_j9388798509068_1_alg».proof.Proof.Gen.KernelIdeal.Frame
import proofs.«161666_j9388798509068_1_alg».proof.Proof.Gen.ReferenceIdeal
import proofs.«161666_j9388798509068_1_alg».proof.Proof.Gen.Pre_finite_inputs
import proofs.«161666_j9388798509068_1_alg».proof.Proof.Gen.KernelIdeal.Value
import proofs.«161666_j9388798509068_1_alg».proof.Proof.Gen.ReferenceIdeal.Run
import proofs.«161666_j9388798509068_1_alg».proof.Proof.Gen.ReferenceIdeal.Read
import proofs.«161666_j9388798509068_1_alg».proof.Proof.KernelScale
import proofs.«161666_j9388798509068_1_alg».proof.Proof.RefScale
import Idealize.ShloMosaic.Adequacy
import Idealize.ShloMosaic.Init

noncomputable section

namespace Cert.Proof

open Idealize.ShloMosaic Idealize.SL.Sem

/-- The kernel as printed terminates without a fault and leaves x and w unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel: there is nothing to preserve. -/
theorem preserves : Cert.preserves_Kernel_KernelIdeal := trivial

/-- From memories that agree on x and w, the kernel's output array and the reference's result both end as
    `scaleLast x w`: entry [b, r, c] is x[b, r, c] · w[c] on both sides. -/
theorem algebraic : Cert.algebraic_KernelIdeal_ReferenceIdeal := by
  intro m ρ m' ρ' _ hagree
  refine ⟨_, Cert.KernelIdeal.KerScale.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefScale.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
